-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S1024x512 : Shape := ⟨2, ![1024, 512]⟩
abbrev S1024x1 : Shape := ⟨2, ![1024, 1]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S16384x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S16384x1_S_d0_1 : S16384x1.ReducesTo [0, 1] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S512x16384 : Shape := ⟨2, ![512, 16384]⟩
abbrev S16384x16384 : Shape := ⟨2, ![16384, 16384]⟩
abbrev S1x16384 : Shape := ⟨2, ![1, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S512x16384, .f32⟩
  | .hbm, ⟨10, _⟩ => ⟨S16384x16384, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  transposes_S16384x512_S512x16384_1_0 : S16384x512.Transposes [1, 0] S512x16384
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x512_S512x16384_S16384x16384_1_0_0_1_n_n_wf : DotDims.WF S16384x512 S512x16384 S16384x16384 [1] [0] [0] [1] [] []

variable [Facts₀]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf

class Facts : Prop extends Facts₀ where

variable [Facts]
-- ==== Proof.Pieces.lean ====
/-
  What each control case of the kernel body leaves behind, as values.

  The body keeps a [1024,1] scratch of running row minima. At the first column tile it stores the +∞ splat,
  reads it back and stores the update; at every other tile it stores the update over what the tile before
  left; at the last column tile it also stores, into the output block, the hinge of the scratch it has just
  updated. Each store covers its whole buffer, so what a buffer holds afterwards is the last stored value,
  a pure function of the blocks loaded.
-/
import proofs.«153444_j86887188398391_1_alg».proof.Proof.Gen.KernelIdeal.Frame
import Idealize.ShloMosaic.Lib.Pipeline.Value
import Idealize.ShloMosaic.Lib.Tactic

set_option maxRecDepth 16384

noncomputable section

namespace Cert.NNLoss.Kernel

open Idealize.ShloMosaic Idealize.ShloMosaic.TcCoe Idealize.SL.Sem
open Idealize.ShloMosaic.Pipeline (Dat)
open Cert.KernelIdeal Cert.KernelIdeal.Gen

variable {F : FTy → Type} [FloatOps F]

theorem offsets_zero : (![0, 0] : Fin 2 → Nat) = fun _ => 0 := funext fun a => by fin_cases a <;> rfl

/-- First column tile: the scratch ends at the update of the +∞ splat. -/
theorem scratch_first (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x512 .f32) (x1 : Vec F S1024x512 .f32) (x2 : Vec F S1024x1 .f32) (x3 : Vec F S1x1024 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1) offsets_zero, View.readCov_unit_zero (S := S1024x1) _ offsets_zero]
  simp only [View.readAt_eq_ld, harg2.read_unread, harg3.read_unread, harg4.read_unread, harg5.read_unread, harg7.read_unread, View.ld_unit_zero (S := S1024x1) offsets_zero, View.ld_unit_zero (S := S1024x512) offsets_zero, View.ld_unit_zero (S := S1x1024) offsets_zero, View.readCov_unit_zero (S := S1024x1) _ offsets_zero]

/-- A middle column tile: the scratch ends at the update of what the tile before left. -/
theorem scratch_middle (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x512 .f32) (x1 : Vec F S1024x512 .f32) (x2 : Vec F S1024x1 .f32) (x3 : Vec F S1x1024 .f32) (xs0 : Vec F S1024x1 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero offsets_zero]
  simp only [View.readAt_eq_ld, harg2.read_unread, harg3.read_unread, harg4.read_unread, harg5.read_unread, harg7.read_unread, View.ld_unit_zero (S := S1024x1) offsets_zero, View.ld_unit_zero (S := S1024x512) offsets_zero, View.ld_unit_zero (S := S1x1024) offsets_zero]

/-- The last column tile: the scratch ends at the same update, -/
theorem scratch_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .f32) (x1 : Vec F S1024x512 .f32) (x2 : Vec F S1024x1 .f32) (x3 : Vec F S1x1024 .f32) (xs0 : Vec F S1024x1 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero offsets_zero]
  simp only [View.readAt_eq_ld, harg2.read_unread, harg3.read_unread, harg4.read_unread, harg5.read_unread, harg7.read_unread, View.ld_unit_zero (S := S1024x1) offsets_zero, View.ld_unit_zero (S := S1024x512) offsets_zero, View.ld_unit_zero (S := S1x1024) offsets_zero]

/-- and the output block at the hinge of that updated scratch. -/
theorem out_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x512 .f32) (x1 : Vec F S1024x512 .f32) (x2 : Vec F S1024x1 .f32) (x3 : Vec F S1x1024 .f32) (xs0 : Vec F S1024x1 .f32) :
    out0_C_4 c i arg2 harg2 arg3 harg3 arg4 harg4 arg5 harg5 arg6 harg6 arg7 harg7 hc0 hc1 x0 x1 x2 x3 xs0 = k0_pay3 (k0_pay2 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero offsets_zero]
  simp only [View.readAt_eq_ld, harg2.read_unread, harg3.read_unread, harg4.read_unread, harg5.read_unread, harg7.read_unread, View.ld_unit_zero (S := S1024x1) offsets_zero, View.ld_unit_zero (S := S1024x512) offsets_zero, View.ld_unit_zero (S := S1x1024) offsets_zero, View.readCov_unit_zero (S := S1024x1) _ offsets_zero]

end Cert.NNLoss.Kernel

end
-- ==== Proof.Spec.lean ====
/-
  The nearest-neighbour margin loss, as one function of the two feature arrays.

  For features `a b : [16384, 512]` over the extended reals:
    sqNorm x i   = 0 + ∑ₖ x[i,k]²
    inner  i j   = ∑ₖ a[i,k] · b[j,k]
    dist2  i j   = max ((sqNorm a i + sqNorm b j) − 2 · inner i j) 0
    nearest i    = the minimum over all 16384 columns j of dist2 i j, taken from +∞
    hinge  i     = max (√(nearest i) − margin) 0
    loss         = (0 + ∑ᵢ hinge i) / 16384
  The float literals stay the binary words both programs print.

  A minimum taken from one starting value over a set of columns is determined by its lower bounds
  (`c ≤ fold min b f ↔ c ≤ b ∧ ∀ x, c ≤ f x`), so a minimum over the columns below `1024·(n+1)` is the
  minimum over the columns below `1024·n` combined with the minimum over the `n`-th tile of 1024 columns,
  whatever the starting value is and however the tiles are grouped.
-/
import Idealize.ShloMosaic.PureOps.Ideal
import Idealize.ShloMosaic.Lib.ValueIdx
import Mathlib.Data.Finset.Fold

noncomputable section

open scoped BigOperators

namespace Cert.NNLoss

open Idealize.ShloMosaic Idealize.ShloMosaic.ValueIdx

/-- The shape of a feature array. -/
abbrev Feat : Shape := ⟨2, ![16384, 512]⟩

/-- The five literals of the two programs, as the words they print. -/
abbrev zero : EReal := Ideal.ofBits .f32 0x00000000#32
abbrev two : EReal := Ideal.ofBits .f32 0x40000000#32
abbrev inf : EReal := Ideal.ofBits .f32 0x7F800000#32
abbrev margin : EReal := Ideal.ofBits .f32 0x3DCCCCCD#32
abbrev count : EReal := Ideal.ofBits .f32 0x46800000#32

/-- A row's squared norm, summed from the zero word. -/
def sqNorm (x : Feat.Idx → EReal) (i : Fin 16384) : EReal := zero + ∑ k : Fin 512, x (ix2 i k) * x (ix2 i k)

/-- The inner product of row `i` of `a` with row `j` of `b`. -/
def inner (a b : Feat.Idx → EReal) (i j : Fin 16384) : EReal := ∑ k : Fin 512, a (ix2 i k) * b (ix2 j k)

/-- The squared distance by the expansion `|a|² + |b|² − 2 a·b`, clipped at zero. -/
def dist2 (a b : Feat.Idx → EReal) (i j : Fin 16384) : EReal :=
  max (sqNorm a i + sqNorm b j - two * inner a b i j) zero

/-- The minimum of row `i`'s squared distances over the columns below `n`, from +∞. -/
def nearestBelow (a b : Feat.Idx → EReal) (i : Fin 16384) (n : ℕ) : EReal :=
  (Finset.univ.filter fun j : Fin 16384 => j.val < n).fold min inf (dist2 a b i)

/-- The minimum over all columns. -/
def nearest (a b : Feat.Idx → EReal) (i : Fin 16384) : EReal :=
  (Finset.univ : Finset (Fin 16384)).fold min inf (dist2 a b i)

/-- Column `q` of the `n`-th tile of 1024 columns. -/
abbrev col (n : Fin 16) (q : Fin 1024) : Fin 16384 := ⟨1024 * n.val + q.val, by have := n.isLt; have := q.isLt; omega⟩

/-- The minimum over one tile of 1024 columns, from +∞. -/
def tileMin (a b : Feat.Idx → EReal) (i : Fin 16384) (n : Fin 16) : EReal :=
  (Finset.univ : Finset (Fin 1024)).fold min inf fun q => dist2 a b i (col n q)

/-- The distance to the nearest row of `b`, less the margin, clipped at zero. -/
def hinge (a b : Feat.Idx → EReal) (i : Fin 16384) : EReal := max (Ideal.sqrt (nearest a b i) - margin) zero

/-- The mean of the hinge over the rows of `a`. -/
def loss (a b : Feat.Idx → EReal) : EReal := Ideal.div (zero + ∑ i : Fin 16384, hinge a b i) count

/-- Below column 0 there is nothing: the minimum is its starting value. -/
theorem nearestBelow_zero (a b : Feat.Idx → EReal) (i : Fin 16384) : nearestBelow a b i 0 = inf := by
  unfold nearestBelow
  rw [Finset.filter_false_of_mem (fun j _ => Nat.not_lt_zero _), Finset.fold_empty]

/-- One more tile: the minimum below `1024·(n+1)` is the minimum below `1024·n` combined with tile `n`'s. -/
theorem nearestBelow_tile (a b : Feat.Idx → EReal) (i : Fin 16384) (n : Fin 16) :
    min (nearestBelow a b i (1024 * n.val)) (tileMin a b i n) = nearestBelow a b i (1024 * (n.val + 1)) := by
  refine eq_of_forall_le_iff fun c => ?_
  unfold nearestBelow tileMin
  simp only [le_min_iff, Finset.le_fold_min, Finset.mem_filter, Finset.mem_univ, true_and, forall_true_left]
  constructor
  · rintro ⟨⟨hc, h1⟩, -, h2⟩
    refine ⟨hc, fun j hj => ?_⟩
    by_cases hlt : j.val < 1024 * n.val
    · exact h1 j hlt
    · have e : j = col n ⟨j.val - 1024 * n.val, by omega⟩ := Fin.ext (by show j.val = 1024 * n.val + (j.val - 1024 * n.val); omega)
      rw [e]; exact h2 _
  · rintro ⟨hc, h⟩
    exact ⟨⟨hc, fun j hj => h j (by omega)⟩, hc, fun q => h _ (by show 1024 * n.val + q.val < _; have := q.isLt; omega)⟩

/-- The first tile from +∞. -/
theorem nearestBelow_first (a b : Feat.Idx → EReal) (i : Fin 16384) :
    min inf (tileMin a b i 0) = nearestBelow a b i 1024 := by
  have h := nearestBelow_tile a b i 0
  rwa [show 1024 * (0 : Fin 16).val = 0 from rfl, nearestBelow_zero] at h

/-- Below column 16384 is every column. -/
theorem nearestBelow_all (a b : Feat.Idx → EReal) (i : Fin 16384) : nearestBelow a b i 16384 = nearest a b i := by
  unfold nearestBelow nearest
  rw [Finset.filter_true_of_mem (fun j _ => j.isLt)]

end Cert.NNLoss

end
-- ==== Proof.Arrays.lean ====
/-
  The arrays the kernel region finds, and the blocks its windows read from them.

  Before the region the host computes the two squared-norm arrays: `|a_i|²` as a column [16384,1] and
  `|b_j|²` as a row [1,16384]. The grid has 16 × 16 points; point `t` works on row tile `t / 16` and
  column tile `t % 16`. Its four input blocks are rows `1024·(t/16) + p` of `a` and of the norm
  column, and rows (for the norm row: columns) `1024·(t%16) + q` of `b` and of the norm row.
-/
import proofs.«153444_j86887188398391_1_alg».proof.Proof.Gen.KernelIdeal.Frame
import proofs.«153444_j86887188398391_1_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.NNLoss.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The two feature arrays as launched. -/
abbrev featA (c : Dev nD) : Feat.Idx → EReal := m ((c : Thread nD τ).loc main_arg0)
abbrev featB (c : Dev nD) : Feat.Idx → EReal := m ((c : Thread nD τ).loc main_arg1)

theorem points : cfg0.N = 256 := N_0

/-- The row of the arrays that row `p` of point `t`'s row tile is. -/
def rowOf (t : Fin cfg0.N) (p : Fin 1024) : Fin 16384 :=
  ⟨1024 * (t.val / 16) + p.val, by have := lt_of_lt_of_eq t.isLt points; have := p.isLt; omega⟩

/-- The column tile of point `t`. -/
def tileOf (t : Fin cfg0.N) : Fin 16 := ⟨t.val % 16, Nat.mod_lt _ (by decide)⟩

theorem rowOf_val (t : Fin cfg0.N) (p : Fin 1024) : (rowOf t p).val = 1024 * (t.val / 16) + p.val := rfl
theorem tileOf_val (t : Fin cfg0.N) : (tileOf t).val = t.val % 16 := rfl

/-- The printed index maps over the grid: the row-tile windows move with `t / 16`, the column-tile windows with `t % 16`. -/
theorem index_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-! ## The host's two norm arrays, read at an index -/

theorem normCol_eq (c : Dev nD) : (V m c main_v2 : S16384x1.Idx → EReal)
    = broadcastInDim S16384x1 ![0] bcast_S16384_S16384x1_0
        (Host.reduceAdd (mulf (featA m c) (featA m c)) (constant (F := Ideal) S_ .f32 0x00000000#32) reducesTo_S16384x512_S16384_d1 h_S_) := by
  show StableHlo.after hostOps0 (fun b => m (c, b)) (Proc.devRef .tc main_v2) = _
  after_results

theorem normRow_eq (c : Dev nD) : (V m c main_v5 : S1x16384.Idx → EReal)
    = broadcastInDim S1x16384 ![1] bcast_S16384_S1x16384_1
        (Host.reduceAdd (mulf (featB m c) (featB m c)) (constant (F := Ideal) S_ .f32 0x00000000#32) reducesTo_S16384x512_S16384_d1 h_S_) := by
  show StableHlo.after hostOps0 (fun b => m (c, b)) (Proc.devRef .tc main_v5) = _
  after_results

/-- Row `i` of the norm column is the squared norm of row `i` of `a`. -/
theorem normCol_apply (c : Dev nD) (i : Fin 16384) : V m c main_v2 (ix2 i (0 : Fin 1)) = sqNorm (featA m c) i := by
  refine (congrFun (normCol_eq m c) (ix2 i (0 : Fin 1))).trans ?_
  refine (broadcastInDim_apply _ bcast_S16384_S16384x1_0 _ (ix2 i (0 : Fin 1)) (ix1 i) (fun a => match a with
    | ⟨0, _⟩ => by show i.val = if (16384 : Nat) = 1 then 0 else i.val; rw [if_neg (by decide)])).trans ?_
  simp only [Host.reduceAdd, Ideal.hostReduceAdd_def]
  rw [Ideal.hostReduceAdd_single reducesTo_S16384x512_S16384_d1 (by decide)]
  unfold sqNorm
  refine congrArg (_ + ·) (Finset.sum_congr rfl fun k _ => ?_)
  show featA m c _ * featA m c _ = _
  have e : (Shape.Reduces.lift (s := S16384x512) (t := S16384) (a := (1 : Fin 2)) (by decide) (ix1 i) k) = ix2 i k :=
    funext fun a => Fin.ext (by match a with | ⟨0, _⟩ => rfl | ⟨1, _⟩ => rfl)
  rw [e]; rfl

/-- Column `j` of the norm row is the squared norm of row `j` of `b`. -/
theorem normRow_apply (c : Dev nD) (j : Fin 16384) : V m c main_v5 (ix2 (0 : Fin 1) j) = sqNorm (featB m c) j := by
  refine (congrFun (normRow_eq m c) (ix2 (0 : Fin 1) j)).trans ?_
  refine (broadcastInDim_apply _ bcast_S16384_S1x16384_1 _ (ix2 (0 : Fin 1) j) (ix1 j) (fun a => match a with
    | ⟨0, _⟩ => by show j.val = if (16384 : Nat) = 1 then 0 else j.val; rw [if_neg (by decide)])).trans ?_
  simp only [Host.reduceAdd, Ideal.hostReduceAdd_def]
  rw [Ideal.hostReduceAdd_single reducesTo_S16384x512_S16384_d1 (by decide)]
  unfold sqNorm
  refine congrArg (_ + ·) (Finset.sum_congr rfl fun k _ => ?_)
  show featB m c _ * featB m c _ = _
  have e : (Shape.Reduces.lift (s := S16384x512) (t := S16384) (a := (1 : Fin 2)) (by decide) (ix1 j) k) = ix2 j k :=
    funext fun a => Fin.ext (by match a with | ⟨0, _⟩ => rfl | ⟨1, _⟩ => rfl)
  rw [e]; rfl

/-! ## The four input blocks of a point, read at an index -/

/-- Point `t`'s block of `a`, of `b`, of the norm column and of the norm row, at their literal types. -/
abbrev blkA (c : Dev nD) (t : Fin cfg0.N) : Vec Ideal S1024x512 .f32 := iblk m c 0 t
abbrev blkB (c : Dev nD) (t : Fin cfg0.N) : Vec Ideal S1024x512 .f32 := iblk m c 1 t
abbrev blkNormA (c : Dev nD) (t : Fin cfg0.N) : Vec Ideal S1024x1 .f32 := iblk m c 2 t
abbrev blkNormB (c : Dev nD) (t : Fin cfg0.N) : Vec Ideal S1x1024 .f32 := iblk m c 3 t

/-- Row `p` of point `t`'s block of `a` is row `rowOf t p` of `a`. -/
theorem blockA_apply (c : Dev nD) (t : Fin cfg0.N) (p : Fin 1024) (k : Fin 512) :
    blkA m c t (ix2 p k) = featA m c (ix2 (rowOf t p) k) := by
  obtain ⟨e0, e1, -⟩ := index_facts t
  unfold blkA iblk
  rw [View.read_apply]
  show V m c main_arg0 _ = _
  rw [V_main_arg0]
  refine congrArg (featA m c) (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 512 + 1 * k.val = k.val; rw [e1]; omega

/-- Row `q` of point `t`'s block of `b` is row `col (tileOf t) q` of `b`. -/
theorem blockB_apply (c : Dev nD) (t : Fin cfg0.N) (q : Fin 1024) (k : Fin 512) :
    blkB m c t (ix2 q k) = featB m c (ix2 (col (tileOf t) q) k) := by
  obtain ⟨-, -, e0, e1, -⟩ := index_facts t
  unfold blkB iblk
  rw [View.read_apply]
  show V m c main_arg1 _ = _
  rw [V_main_arg1]
  refine congrArg (featB m c) (funext fun a => Fin.ext ?_)
  match a with
  | ⟨0, _⟩ => show win0_1.index t (0 : Fin 2) * 1024 + 1 * q.val = 1024 * (t.val % 16) + q.val; rw [e0]; omega
  | ⟨1, _⟩ => show win0_1.index t (1 : Fin 2) * 512 + 1 * k.val = k.val; rw [e1]; omega

/-- Row `p` of point `t`'s block of the norm column is `|a|²` at row `rowOf t p`. -/
theorem blockNormA_apply (c : Dev nD) (t : Fin cfg0.N) (p : Fin 1024) :
    blkNormA m c t (ix2 p (0 : Fin 1)) = sqNorm (featA m c) (rowOf t p) := by
  obtain ⟨-, -, -, -, e0, e1, -⟩ := index_facts t
  rw [← normCol_apply]
  unfold blkNormA iblk
  rw [View.read_apply]
  show V m c main_v2 _ = _
  refine congrArg (V m c main_v2) (funext fun a => Fin.ext ?_)
  match a with
  | ⟨0, _⟩ => show win0_2.index t (0 : Fin 2) * 1024 + 1 * p.val = 1024 * (t.val / 16) + p.val; rw [e0]; omega
  | ⟨1, _⟩ => show win0_2.index t (1 : Fin 2) * 1 + 1 * 0 = 0; rw [e1]

/-- Column `q` of point `t`'s block of the norm row is `|b|²` at row `col (tileOf t) q`. -/
theorem blockNormB_apply (c : Dev nD) (t : Fin cfg0.N) (q : Fin 1024) :
    blkNormB m c t (ix2 (0 : Fin 1) q) = sqNorm (featB m c) (col (tileOf t) q) := by
  obtain ⟨-, -, -, -, -, -, e0, e1, -⟩ := index_facts t
  rw [← normRow_apply]
  unfold blkNormB iblk
  rw [View.read_apply]
  show V m c main_v5 _ = _
  refine congrArg (V m c main_v5) (funext fun a => Fin.ext ?_)
  match a with
  | ⟨0, _⟩ => show win0_3.index t (0 : Fin 2) * 1 + 1 * 0 = 0; rw [e0]
  | ⟨1, _⟩ => show win0_3.index t (1 : Fin 2) * 1024 + 1 * q.val = 1024 * (t.val % 16) + q.val; rw [e1]; omega

end Cert.NNLoss.Kernel

end
-- ==== Proof.Payload.lean ====
/-
  The three values the kernel body stores, read at an index at the ideal instance.

  The first is the +∞ splat. The second is, at row `p`, the minimum of the loaded scratch at `p` and the minimum over the
  block's 1024 columns `q`, taken from +∞, of `max (x2[p] + x3[q] − 2 · ∑ₖ x0[p,k] · x1[q,k]) 0`. The third is
  `max (√v[p] − margin) 0`.

  Each operation that is not pointwise is read at an index by its own lemma: the product of a block with a transposed
  block (a sum over the one contracted axis), the two broadcasts of a column and of a row to the square, the minimum
  along the lanes (a fold of `min` over the lane coordinate), and the view of a lane vector as a column.
-/
import proofs.«153444_j86887188398391_1_alg».proof.Proof.Gen.KernelIdeal.Skeleton
import proofs.«153444_j86887188398391_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.NNLoss.Payload

open Cert.KernelIdeal Cert.KernelIdeal.Gen Idealize.ShloMosaic Idealize.ShloMosaic.ValueIdx

/-! ## Layout operations at an index -/

section Layout
variable {α : Type}

/-- A lane vector of 1024 viewed as a [1024,1] column reads, at row `p`, lane `p`. -/
theorem cast_col_apply (v : S1024.Idx → α) (h : S1024.ShapeCasts S1024x1) (p : Fin 1024) :
    shapeCast S1024x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A [1024,1] column broadcast along the lanes reads, at `(p, q)`, the column at row `p`. -/
theorem bcast_col_apply (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : ℕ) = 1 then 0 else p.val
    rw [if_neg (by decide)]
  | ⟨1, _⟩ =>
    show 0 = if (1 : ℕ) = 1 then 0 else q.val
    rw [if_pos rfl]

/-- A [1,1024] row broadcast along the rows reads, at `(p, q)`, the row at lane `q`. -/
theorem bcast_row_apply (v : S1x1024.Idx → α) (h : S1x1024.Broadcasts S1024x1024) (p q : Fin 1024) :
    broadcastTo S1024x1024 v h (ix2 p q) = v (ix2 (0 : Fin 1) q) :=
  broadcastTo_1b_ab_apply v h p q

/-- The transposed block reads, at `(k, q)`, the block at `(q, k)`. -/
theorem transpose_blk_apply (x : S1024x512.Idx → α) (h : S1024x512.Transposes [1, 0] S512x1024) (k : Fin 512) (q : Fin 1024) :
    transpose S512x1024 [1, 0] x h (ix2 k q) = x (ix2 q k) :=
  transpose_ix2_apply x h k q

end Layout

/-! ## The minimum along the lanes -/

/-- The source index over lane-reduced row `p` with lane `q` inserted is `(p, q)`. -/
theorem lift_row (h : S1024x1024.Reduces [1] S1024) (p q : Fin 1024) : h.lift (ix1 p) q = ix2 p q :=
  funext fun a => Fin.ext (by match a with | ⟨0, _⟩ => rfl | ⟨1, _⟩ => rfl)

/-- A `<minimumf>` reduction over the lane axis, read at row `p`: the fold of `min` from the accumulator's value over
    the row's 1024 lanes. -/
theorem lane_min_apply (src : FVec Ideal S1024x1024 .f32) (acc : BitVec 32) (h : S1024x1024.Reduces [1] S1024)
    (hφ : FKind.Formats .f32) (hacc : acc = FKind.minimumf.neutral .f32 hφ) (p : Fin 1024) :
    multiReduction (F := Ideal) .minimumf [1] S1024 src acc h hφ hacc (ix1 p)
      = (Finset.univ : Finset (Fin 1024)).fold min (Ideal.ofBits .f32 acc) fun q => src (ix2 p q) := by
  rw [multiReduction_minimumf_eq_fold]
  refine (h.fold_filter_drop_single _ _ src (ix1 p)).trans ?_
  show (Finset.univ : Finset (Fin 1024)).fold min (Ideal.ofBits .f32 acc) (src ∘ h.lift (ix1 p)) = _
  exact congrArg (fun f => Finset.fold min (Ideal.ofBits .f32 acc) f (Finset.univ : Finset (Fin 1024)))
    (funext fun q => congrArg src (lift_row h p q))

/-! ## The product of a block with a transposed block -/

theorem lhs_dot_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_dot_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_dot_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_dot_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product into the zero accumulator, read at `(p, q)`: the sum over the contracted coordinate `k` of the left
    operand at `(p, k)` times the right operand at `(k, q)`. -/
theorem matmul_at {φ₁ φ₂ : FTy} (a : FVec Ideal S1024x512 φ₁) (b : FVec Ideal S512x1024 φ₂) (p q : Fin 1024) :
    matmul dot_S1024x512_S512x1024_S1024x1024_1_0_0_1_n_n none a b (constant S1024x1024 .f32 0x00000000#32) (ix2 p q)
      = ∑ k : Fin 512, a (ix2 p k) * b (ix2 k q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun c => Fin.ext (by
    match c with
    | ⟨0, _⟩ => exact lhs_dot_0 _ _
    | ⟨1, _⟩ => exact (lhs_dot_1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun c => Fin.ext (by
    match c with
    | ⟨0, _⟩ => exact (rhs_dot_0 _ _).trans hk
    | ⟨1, _⟩ => exact rhs_dot_1 _ _)
  rw [el, er]

/-! ## The three stored values -/

/-- The first stored value is the +∞ splat. -/
theorem pay1_apply (p : Fin 1024) : k0_pay1 (F := Ideal) (ix2 p 0) = Cert.NNLoss.inf := by
  unfold k0_pay1
  rw [shapeCast_self]
  rfl

/-- The squared distance of row `p` to column `q` of the block, clipped at zero, as the body computes it. -/
theorem dist_at (x0 x1 : Vec Ideal S1024x512 .f32) (x2 : Vec Ideal S1024x1 .f32) (x3 : Vec Ideal S1x1024 .f32) (p q : Fin 1024) :
    (maximumf
        (subf
          (addf
            (broadcastTo S1024x1024 (shapeCast S1024x1 x2 shapeCasts_S1024x1_S1024x1) broadcasts_S1024x1_S1024x1024)
            (broadcastTo S1024x1024 (shapeCast S1x1024 x3 shapeCasts_S1x1024_S1x1024) broadcasts_S1x1024_S1024x1024))
          (mulf (broadcast S1024x1024 (FloatOps.ofBits (F := Ideal) .f32 0x40000000#32))
            (matmul dot_S1024x512_S512x1024_S1024x1024_1_0_0_1_n_n none (truncf .bf16 x0 bitsLt_bf16_f32)
              (transpose S512x1024 [1, 0] (truncf .bf16 x1 bitsLt_bf16_f32) transposes_S1024x512_p1_0_S512x1024)
              (constant S1024x1024 .f32 0x00000000#32))))
        (broadcast S1024x1024 (FloatOps.ofBits (F := Ideal) .f32 0x00000000#32)) : FVec Ideal S1024x1024 .f32) (ix2 p q)
      = max (x2 (ix2 p 0) + x3 (ix2 0 q) - Cert.NNLoss.two * ∑ k : Fin 512, x0 (ix2 p k) * x1 (ix2 q k)) Cert.NNLoss.zero := by
  rw [shapeCast_self, shapeCast_self, maximumf_apply, subf_apply, addf_apply, mulf_apply, broadcast_apply, broadcast_apply,
    bcast_col_apply, bcast_row_apply, matmul_at]
  refine congrArg (fun s => max (x2 (ix2 p 0) + x3 (ix2 0 q) - Cert.NNLoss.two * s) Cert.NNLoss.zero) (Finset.sum_congr rfl fun k _ => ?_)
  rw [transpose_blk_apply]
  rfl

/-- The second stored value: the scratch's running minimum combined with the block's minimum of squared distances. -/
theorem pay2_apply (x0 x1 : Vec Ideal S1024x512 .f32) (x2 : Vec Ideal S1024x1 .f32) (x3 : Vec Ideal S1x1024 .f32) (xs : Vec Ideal S1024x1 .f32) (p : Fin 1024) :
    k0_pay2 (F := Ideal) x0 x1 x2 x3 xs (ix2 p 0)
      = min (xs (ix2 p 0)) ((Finset.univ : Finset (Fin 1024)).fold min Cert.NNLoss.inf fun q =>
          max (x2 (ix2 p 0) + x3 (ix2 0 q) - Cert.NNLoss.two * ∑ k : Fin 512, x0 (ix2 p k) * x1 (ix2 q k)) Cert.NNLoss.zero) := by
  unfold k0_pay2
  rw [shapeCast_self]
  refine congrArg (min (xs (ix2 p 0))) ?_
  refine (cast_col_apply _ _ p).trans ?_
  refine (lane_min_apply _ _ _ _ _ p).trans ?_
  exact congrArg (fun f => Finset.fold min Cert.NNLoss.inf f (Finset.univ : Finset (Fin 1024)))
    (funext fun q => dist_at x0 x1 x2 x3 p q)

/-- The third stored value: the distance less the margin, clipped at zero. -/
theorem pay3_apply (v : Vec Ideal S1024x1 .f32) (p : Fin 1024) :
    k0_pay3 (F := Ideal) v (ix2 p 0) = max (Ideal.sqrt (v (ix2 p 0)) - Cert.NNLoss.margin) Cert.NNLoss.zero := by
  unfold k0_pay3
  rfl

end Cert.NNLoss.Payload

end
-- ==== Proof.Invariant.lean ====
/-
  The scratch, point by point, and the output block of a sweep's last point.

  The grid runs the 16 column tiles of a row tile one after the other. After the point at column tile `n` the
  scratch holds, for each of the tile's 1024 rows, the minimum of the clipped squared distances to the columns
  below `1024·(n+1)`: the first point starts from +∞, every later point combines what the point before left
  with its own tile's minimum. At column tile 15 that is the minimum over all 16384 columns, and the point
  stores the hinge of its square root into the output block.
-/
import proofs.«153444_j86887188398391_1_alg».proof.Proof.Pieces
import proofs.«153444_j86887188398391_1_alg».proof.Proof.Arrays
import proofs.«153444_j86887188398391_1_alg».proof.Proof.Payload

set_option maxRecDepth 16384

noncomputable section

open scoped BigOperators

namespace Cert.NNLoss.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- What the scratch holds after point `t`: each row's minimum over the columns of the tiles done so far in
    the current sweep of the row tile. -/
def runningMin (c : Dev nD) (t : Fin cfg0.N) : Vec Ideal S1024x1 .f32 :=
  fun y => nearestBelow (featA m c) (featB m c) (rowOf t (y 0)) (1024 * (t.val % 16 + 1))

/-- Point `t`'s tile minimum, written over its four input blocks, is the specification's tile minimum. -/
theorem tile_eq (c : Dev nD) (t : Fin cfg0.N) (p : Fin 1024) :
    ((Finset.univ : Finset (Fin 1024)).fold min inf fun q =>
      max (blkNormA m c t (ix2 p (0 : Fin 1)) + blkNormB m c t (ix2 (0 : Fin 1) q)
        - two * ∑ k : Fin 512, blkA m c t (ix2 p k) * blkB m c t (ix2 q k)) zero)
      = tileMin (featA m c) (featB m c) (rowOf t p) (tileOf t) := by
  unfold tileMin
  refine Finset.fold_congr fun q _ => ?_
  have eA : blkNormA m c t (ix2 p (0 : Fin 1)) = sqNorm (featA m c) (rowOf t p) := blockNormA_apply m c t p
  have eB : blkNormB m c t (ix2 (0 : Fin 1) q) = sqNorm (featB m c) (col (tileOf t) q) := blockNormB_apply m c t q
  have eI : (∑ k : Fin 512, blkA m c t (ix2 p k) * blkB m c t (ix2 q k)) = inner (featA m c) (featB m c) (rowOf t p) (col (tileOf t) q) :=
    Finset.sum_congr rfl fun k _ => by rw [blockA_apply m c t p k, blockB_apply m c t q k]
  rw [eA, eB, eI]
  rfl

/-- The update at point `t`: over a scratch holding the minimum below the point's first column, the body leaves
    the minimum below the next tile's first column. -/
theorem update_apply (c : Dev nD) (t : Fin cfg0.N) (xs : Vec Ideal S1024x1 .f32) (p : Fin 1024)
    (hxs : xs (ix2 p (0 : Fin 1)) = nearestBelow (featA m c) (featB m c) (rowOf t p) (1024 * (t.val % 16))) :
    k0_pay2 (F := Ideal) (blkA m c t) (blkB m c t) (blkNormA m c t) (blkNormB m c t) xs (ix2 p (0 : Fin 1))
      = runningMin m c t (ix2 p (0 : Fin 1)) := by
  refine (Cert.NNLoss.Payload.pay2_apply (blkA m c t) (blkB m c t) (blkNormA m c t) (blkNormB m c t) xs p).trans ?_
  rw [hxs, tile_eq m c t p]
  exact nearestBelow_tile (featA m c) (featB m c) (rowOf t p) (tileOf t)

/-- The same as whole blocks. -/
theorem update_eq (c : Dev nD) (t : Fin cfg0.N) (xs : Vec Ideal S1024x1 .f32)
    (hxs : ∀ p : Fin 1024, xs (ix2 p (0 : Fin 1)) = nearestBelow (featA m c) (featB m c) (rowOf t p) (1024 * (t.val % 16))) :
    k0_pay2 (F := Ideal) (blkA m c t) (blkB m c t) (blkNormA m c t) (blkNormB m c t) xs = runningMin m c t := by
  funext y
  obtain ⟨p, z, rfl⟩ : ∃ (p : Fin 1024) (z : Fin 1), y = ix2 p z := ⟨y 0, y 1, eq_ix2 y⟩
  obtain rfl : z = 0 := Subsingleton.elim _ _
  exact update_apply m c t xs p (hxs p)

/-- What the point before left is the minimum below this point's first column, when the point is not the first of its sweep. -/
theorem runningMin_pred (c : Dev nD) (t : Fin cfg0.N) (h0 : ¬t.val % 16 = 0) (hlt : t.val - 1 < cfg0.N) (p : Fin 1024) :
    runningMin m c ⟨t.val - 1, hlt⟩ (ix2 p (0 : Fin 1)) = nearestBelow (featA m c) (featB m c) (rowOf t p) (1024 * (t.val % 16)) := by
  unfold runningMin
  have e1 : rowOf ⟨t.val - 1, hlt⟩ p = rowOf t p := Fin.ext (by show 1024 * ((t.val - 1) / 16) + p.val = 1024 * (t.val / 16) + p.val; omega)
  have e2 : (t.val - 1) % 16 + 1 = t.val % 16 := by omega
  show nearestBelow _ _ (rowOf ⟨t.val - 1, hlt⟩ p) (1024 * ((t.val - 1) % 16 + 1)) = _
  rw [e1, e2]

/-- THE SCRATCH, point by point: after point `n` it holds the running minimum. -/
theorem scratch_eq (c : Dev nD) : ∀ (n : ℕ) (h : n < cfg0.N), (outsAt0 m c n h).2 = runningMin m c ⟨n, h⟩
  | 0, h => by
    rw [outsAt0_A m c ⟨0, h⟩ rfl (by show ¬(0 : ℕ) % 16 = 15; decide)]
    dsimp only
    rw [scratch_first]
    refine update_eq m c ⟨0, h⟩ _ fun p => ?_
    rw [Cert.NNLoss.Payload.pay1_apply]
    exact (nearestBelow_zero _ _ _).symm
  | n + 1, h => by
    have hN : cfg0.N = 256 := points
    by_cases h0 : (n + 1) % 16 = 0
    · have h1 : ¬(n + 1) % 16 = 15 := by omega
      rw [outsAt0_A m c ⟨n + 1, h⟩ h0 h1]
      dsimp only
      rw [scratch_first]
      refine update_eq m c ⟨n + 1, h⟩ _ fun p => ?_
      rw [Cert.NNLoss.Payload.pay1_apply]
      show inf = nearestBelow _ _ _ (1024 * ((n + 1) % 16))
      rw [h0]
      exact (nearestBelow_zero _ _ _).symm
    · have ih := scratch_eq c n (Nat.lt_of_succ_lt h)
      by_cases h1 : (n + 1) % 16 = 15
      · rw [outsAt0_C m c ⟨n + 1, h⟩ h0 h1]
        dsimp only
        rw [scratch_last]
        refine update_eq m c ⟨n + 1, h⟩ _ fun p => ?_
        show (outsAt0 m c n _).2 (ix2 p (0 : Fin 1)) = _
        rw [ih]
        exact runningMin_pred m c ⟨n + 1, h⟩ h0 _ p
      · rw [outsAt0_B m c ⟨n + 1, h⟩ h0 h1]
        dsimp only
        rw [scratch_middle]
        refine update_eq m c ⟨n + 1, h⟩ _ fun p => ?_
        show (outsAt0 m c n _).2 (ix2 p (0 : Fin 1)) = _
        rw [ih]
        exact runningMin_pred m c ⟨n + 1, h⟩ h0 _ p

/-- The hinge of the rows of point `t`'s row tile, as a block. -/
def hingeBlock (c : Dev nD) (t : Fin cfg0.N) : Vec Ideal S1024x1 .f32 :=
  fun y => hinge (featA m c) (featB m c) (rowOf t (y 0))

/-- THE OUTPUT BLOCK at the last point of a sweep: the hinge of the rows' nearest distances. -/
theorem out_eq (c : Dev nD) (t : Fin cfg0.N) (h1 : t.val % 16 = 15) : (outsAt0 m c t.val t.isLt).1 = hingeBlock m c t := by
  have hN : cfg0.N = 256 := points
  have h0 : ¬t.val % 16 = 0 := by omega
  rw [outsAt0_C m c t h0 h1]
  dsimp only
  rw [out_last]
  rw [update_eq m c t _ fun p => (congrFun (scratch_eq m c (t.val - 1) _) (ix2 p (0 : Fin 1))).trans (runningMin_pred m c t h0 _ p)]
  funext y
  obtain ⟨p, z, rfl⟩ : ∃ (p : Fin 1024) (z : Fin 1), y = ix2 p z := ⟨y 0, y 1, eq_ix2 y⟩
  obtain rfl : z = 0 := Subsingleton.elim _ _
  refine (Cert.NNLoss.Payload.pay3_apply (runningMin m c t) p).trans ?_
  unfold hingeBlock hinge runningMin
  show max (Ideal.sqrt (nearestBelow _ _ (rowOf t p) (1024 * (t.val % 16 + 1))) - margin) zero = _
  rw [h1, nearestBelow_all]

end Cert.NNLoss.Kernel

end
-- ==== Proof.Result.lean ====
/-
  The result of the kernel program.

  The output array [16384,1] is written back one row tile at a time, at the last point of each sweep, and the
  16 row tiles cover it: so after the region it holds the hinge of every row. The host then sums it from the
  zero word and divides by the word 16384: the loss.
-/
import proofs.«153444_j86887188398391_1_alg».proof.Proof.Invariant

set_option maxRecDepth 16384

noncomputable section

open scoped BigOperators

namespace Cert.NNLoss.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The hinge of every row, as the contents of the output array. -/
def hingeCol (c : Dev nD) : Vec Ideal S16384x1 .f32 :=
  fun y => hinge (featA m c) (featB m c) (y 0)

/-- What a write-back point writes back is its block of the hinge column. -/
theorem flushed_eq (c : Dev nD) (t : Fin cfg0.N) (hf : (cfg0.win 4).flush t = true) :
    (dats m 0 c).flushed 4 t = ((cfg0.win 4).blk t).view.read (Elt Ideal) (hingeCol m c) := by
  have h1 : t.val % 16 = 15 := (flush0_4 t).mp hf
  obtain ⟨-, -, -, -, -, -, -, -, e0, e1⟩ := index_facts t
  show (cfg0.win 4).cut (grid0.coords t) ((dats m 0 c).after 4 t) = _
  rw [after0_4, out_eq m c t h1]
  funext y
  rw [View.read_apply]
  show hinge _ _ (rowOf t (y 0)) = hinge _ _ _
  refine congrArg (hinge _ _) (Fin.ext ?_)
  show 1024 * (t.val / 16) + (y 0).val = win0_4.index t (0 : Fin 2) * 1024 + 1 * (y 0).val
  rw [e0]; omega

/-- An index of the output array is in point `t`'s block iff each coordinate is in the block's range. -/
theorem mem_block (t : Fin cfg0.N) (i : S16384x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v6).slice (win0_4.rect t)).set ↔ _
  rw [View.set_slice_whole, Rect.mem_set_unit]
  exact Iff.rfl

/-- Row `r` is written back at the last point of the sweep of row tile `r / 1024`. -/
theorem covered (i : S16384x1.Idx) : ∃ t : Fin cfg0.N, (cfg0.win 4).flush t = true ∧ i ∈ ((cfg0.win 4).blk t).view.set := by
  have hi0 : (i 0).val < 16384 := (i 0).isLt
  have hi1 : (i 1).val < 1 := (i 1).isLt
  have hlt : 16 * ((i 0).val / 1024) + 15 < cfg0.N := by rw [points]; omega
  obtain ⟨-, -, -, -, -, -, -, -, e0, e1⟩ := index_facts ⟨16 * ((i 0).val / 1024) + 15, hlt⟩
  refine ⟨⟨16 * ((i 0).val / 1024) + 15, hlt⟩, (flush0_4 _).mpr (by show (16 * ((i 0).val / 1024) + 15) % 16 = 15; omega), ?_⟩
  rw [mem_block]
  intro a
  match a with
  | ⟨0, _⟩ =>
    show win0_4.index ⟨16 * ((i 0).val / 1024) + 15, hlt⟩ (0 : Fin 2) * 1024 ≤ (i 0).val ∧ (i 0).val < win0_4.index ⟨16 * ((i 0).val / 1024) + 15, hlt⟩ (0 : Fin 2) * 1024 + 1024
    rw [e0]
    show (16 * ((i 0).val / 1024) + 15) / 16 * 1024 ≤ (i 0).val ∧ (i 0).val < (16 * ((i 0).val / 1024) + 15) / 16 * 1024 + 1024
    omega
  | ⟨1, _⟩ =>
    show win0_4.index ⟨16 * ((i 0).val / 1024) + 15, hlt⟩ (1 : Fin 2) * 1 ≤ (i 1).val ∧ (i 1).val < win0_4.index ⟨16 * ((i 0).val / 1024) + 15, hlt⟩ (1 : Fin 2) * 1 + 1
    rw [e1]; omega

/-- So the output array ends holding the hinge of every row. -/
theorem output_eq (c : Dev nD) : (dats m 0 c).arrAt 4 cfg0.N = hingeCol m c :=
  (dats m 0 c).arrAt_eq_of_cover 4 (hingeCol m c) (flushed_eq m c) covered

/-- The host's mean of the output array is the loss. -/
theorem result_eq (c : Dev nD) :
    Pipeline.afterTail₀ cfgs (dats m) 0 (V0 m) [hostOps1] c main_v8 = fun _ => loss (featA m c) (featB m c) := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.devRef .tc main_v6) = hingeCol m c from
    (Pipeline.withArrays_arr spec0 launch0.win.arr_inj c _ _ 4).trans (output_eq m c)]
  funext s
  show FloatOps.hostDivf (Host.reduceAdd (hingeCol m c) (constant (F := Ideal) S_ .f32 0x00000000#32) reducesTo_S16384x1_S_d0_1 h_S_ s)
    (constant (F := Ideal) S_ .f32 0x46800000#32 s) = _
  simp only [Host.reduceAdd, Ideal.hostReduceAdd_def]
  rw [Ideal.hostReduceAdd_total reducesTo_S16384x1_S_d0_1 (fun b => b.elim0), Ideal.hostDivf_def, sum_idx2]
  have e : ∀ a : Fin 16384, (∑ b : Fin 1, hingeCol m c (ix2 a b)) = hinge (featA m c) (featB m c) a := fun a => by
    rw [Fin.sum_univ_one]
    unfold hingeCol
    rfl
  simp only [e]
  unfold loss
  rfl

/-- THE RUN, read: the result at the loss of the two feature arrays, which end unchanged. -/
theorem run : θ_run defs (onTc (τ := τ) (main (F := Ideal))) ⟨m, fun _ => 0, ρ⟩ fun r => ∀ c : Dev nD,
      r.2.mem ((c.tc : Thread nD τ).loc main_v8) = (fun _ => loss (featA m c) (featB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v8 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.NNLoss.Kernel

end
-- ==== Proof.Reference.lean ====
import proofs.«153444_j86887188398391_1_alg».proof.Proof.Gen.ReferenceIdeal.Run
import proofs.«153444_j86887188398391_1_alg».proof.Proof.Gen.ReferenceIdeal.Read
import proofs.«153444_j86887188398391_1_alg».proof.Proof.Spec
import Idealize.ShloMosaic.Lib.ValueIdxRank1
import Idealize.ShloMosaic.PureOps.Reduce
import Idealize.ShloMosaic.PureOps.Ideal.Laws

/-!
  The reference program, read one operation at a time, computes the nearest-neighbour margin loss.

  Each stage of the program is read at an index built from its coordinates and matched with the
  corresponding function of the specification: the two row-wise squared norms, the inner product,
  the clipped squared distance at a pair of rows, the row minimum of the squared distances, the
  hinge of its square root, and last the mean of the hinges.
-/

noncomputable section

open scoped BigOperators

namespace Cert.NNLoss.Reference

open Cert.ReferenceIdeal Cert.ReferenceIdeal.Gen Cert.ReferenceIdeal.Read
open Idealize.ShloMosaic Idealize.ShloMosaic.ValueIdx

/-- A feature array of the reference program over the extended reals. -/
abbrev Arr : Type := (⟨S16384x512, .f32⟩ : BufTy).Contents (Elt Ideal)

/-- The squared norm of row `i` of the first array. -/
theorem sqNorm_left (x0 : Arr) (i : Fin 16384) :
    val_main_v1 (F := Ideal) x0 (ix1 i) = sqNorm x0 i := by
  rw [val_main_v1_apply, val_main_cst_apply]
  unfold sqNorm
  refine congrArg (_ + ·) (Finset.sum_congr rfl fun k _ => ?_)
  rw [val_main_v0_apply]
  have e : idx_main_v1 (ix1 i) k = ix2 i k := funext fun a => by
    match a with
    | ⟨0, _⟩ => rfl
    | ⟨1, _⟩ => rfl
  rw [e]; rfl

/-- The squared norm of row `j` of the second array. -/
theorem sqNorm_right (x1 : Arr) (j : Fin 16384) :
    val_main_v4 (F := Ideal) x1 (ix1 j) = sqNorm x1 j := by
  rw [val_main_v4_apply, val_main_cst_0_apply]
  unfold sqNorm
  refine congrArg (_ + ·) (Finset.sum_congr rfl fun k _ => ?_)
  rw [val_main_v3_apply]
  have e : idx_main_v4 (ix1 j) k = ix2 j k := funext fun a => by
    match a with
    | ⟨0, _⟩ => rfl
    | ⟨1, _⟩ => rfl
  rw [e]; rfl

/-- The contraction of row `i` of the first array with row `j` of the second (read through the transpose). -/
theorem inner_eq (x0 x1 : Arr) (i j : Fin 16384) :
    val_main_v6 (F := Ideal) x0 x1 (ix2 i j) = inner x0 x1 i j := by
  rw [val_main_v6_apply]
  unfold inner
  refine Finset.sum_congr rfl fun k _ => ?_
  rw [val_main_v5_apply]
  have el : lidx_main_v6 (ix2 i j) k = ix2 i k := funext fun a => by
    match a with
    | ⟨0, _⟩ => rfl
    | ⟨1, _⟩ => rfl
  have er : idx_main_v5 (ridx_main_v6 (ix2 i j) k) = ix2 j k := funext fun a => by
    match a with
    | ⟨0, _⟩ => rfl
    | ⟨1, _⟩ => rfl
  rw [el, er]

/-- The clipped squared distance between row `i` of the first array and row `j` of the second. -/
theorem dist2_eq (x0 x1 : Arr) (i j : Fin 16384) :
    val_main_v15 (F := Ideal) x0 x1 (ix2 i j) = dist2 x0 x1 i j := by
  rw [val_main_v15_apply, val_main_v14_apply, val_main_cst_2_apply, val_main_v13_apply, val_main_v12_apply,
    val_main_v11_apply, val_main_cst_1_apply, val_main_v10_apply, val_main_v9_apply, val_main_v8_apply,
    val_main_v7_apply, val_main_v2_apply, inner_eq]
  have e0 : idx_main_v2 (idx_main_v8 (ix2 i j)) = ix1 i := funext fun a => by
    match a with
    | ⟨0, _⟩ => rfl
  have e1 : idx_main_v7 (idx_main_v9 (ix2 i j)) = ix1 j := funext fun a => by
    match a with
    | ⟨0, _⟩ => rfl
  rw [e0, e1, sqNorm_left, sqNorm_right]
  rfl

/-- Dropping the column axis of the square array of distances leaves the rows. -/
theorem dropCol : S16384x16384.Reduces [1] S16384 := by decide

/-- The index over row `i` with column `k` inserted is the pair `(i, k)`. -/
theorem lift_eq (i : Fin 16384) (k : Fin 16384) :
    dropCol.lift (ix1 i) k = ix2 i k := by
  funext c
  apply Fin.ext
  match c with
  | ⟨0, _⟩ => rfl
  | ⟨1, _⟩ => rfl

/-- The row minimum of the squared distances, from +∞. -/
theorem nearest_eq (x0 x1 : Arr) (i : Fin 16384) :
    val_main_v16 (F := Ideal) x0 x1 (ix1 i) = nearest x0 x1 i := by
  unfold val_main_v16
  rw [Host.reduce_eq_fold_single FloatOps.minimumf _ _ reducesTo_S16384x16384_S16384_d1 dropCol h_S_]
  unfold nearest
  have h : ∀ k : Fin 16384, (val_main_v15 (F := Ideal) x0 x1 ∘ dropCol.lift (ix1 i)) k = dist2 x0 x1 i k := fun k => by
    show val_main_v15 (F := Ideal) x0 x1 (dropCol.lift (ix1 i) k) = _
    rw [lift_eq, dist2_eq]
  exact Finset.fold_congr fun k _ => h k

/-- The hinge of row `i`. -/
theorem hinge_eq (x0 x1 : Arr) (i : Fin 16384) :
    val_main_v20 (F := Ideal) x0 x1 (ix1 i) = hinge x0 x1 i := by
  rw [val_main_v20_apply, val_main_call0_v0_apply, val_main_call0_cst_apply, val_main_v19_apply,
    val_main_v18_apply, val_main_cst_4_apply, val_main_v17_apply, nearest_eq,
    Ideal.maximumf_def, Ideal.subf_def, Ideal.hostUnary_sqrt_def, Ideal.ofBits_def, Ideal.ofBits_def]
  unfold hinge
  exact rfl

/-- The reference program's result is the loss. -/
theorem stage_eq (x0 x1 : (⟨Cert.ReferenceIdeal.S16384x512, .f32⟩ : BufTy).Contents (Elt Ideal)) :
    Cert.ReferenceIdeal.Read.val_main_v22 (F := Ideal) x0 x1 = fun _ => Cert.NNLoss.loss x0 x1 := by
  funext s
  rw [val_main_v22_apply, val_main_v21_apply, val_main_cst_5_apply, val_main_cst_6_apply]
  unfold loss
  rw [← Equiv.sum_comp (idxEquiv1 (n := 16384)).symm]
  have e : ∀ i : Fin 16384, val_main_v20 (F := Ideal) x0 x1 ((idxEquiv1 (n := 16384)).symm i) = hinge x0 x1 i :=
    fun i => hinge_eq x0 x1 i
  simp only [e]
  rw [Ideal.hostDivf_def, Ideal.ofBits_def, Ideal.ofBits_def]

end Cert.NNLoss.Reference

end
-- ==== Proof.lean ====
/-
  The kernel computes the nearest-neighbour margin loss of two feature arrays `a b : [16384, 512]`:
  with `d(i, j) = max (|a_i|² + |b_j|² − 2 a_i·b_j) 0`, the mean over the rows `i` of
  `max (√(min_j d(i, j)) − margin) 0`.

  The reference takes each row's minimum over all 16384 columns at once. The kernel sweeps the columns in 16
  tiles of 1024, keeping the running minimum of each row in a scratch buffer that starts at +∞, and writes the
  hinge of its square root when the last tile is done; the squared norms are computed by the host before the
  kernel and the mean after it. Over the extended reals a minimum does not depend on how its arguments are
  grouped, the bf16 rounding of the matrix product's operands is the identity, and every other operation is
  the same on both sides: both programs end at `Cert.NNLoss.loss a b` (Proof/Spec.lean). The law that joins the
  two sides uses only the order of the extended reals, so the precondition is not opened.

  The three frames are the generated frame runs (the reference's is its run with the result dropped); the
  ideal pass rewrote nothing, so `preserves` is `True`.
-/
import proofs.«153444_j86887188398391_1_alg».proof.Defs
import proofs.«153444_j86887188398391_1_alg».proof.Proof.Gen.Kernel.Frame
import proofs.«153444_j86887188398391_1_alg».proof.Proof.Gen.KernelIdeal.Frame
import proofs.«153444_j86887188398391_1_alg».proof.Proof.Gen.ReferenceIdeal
import proofs.«153444_j86887188398391_1_alg».proof.Proof.Gen.Pre_finite_inputs
import proofs.«153444_j86887188398391_1_alg».proof.Proof.Result
import proofs.«153444_j86887188398391_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two feature arrays both programs end at the loss of those arrays. -/
theorem algebraic : Cert.algebraic_KernelIdeal_ReferenceIdeal := by
  intro m ρ m' ρ' _ hagree
  refine ⟨_, Cert.NNLoss.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _).trans ?_
  rw [Cert.NNLoss.Reference.stage_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
